-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_cst_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_cst_5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_cst_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S4x4x2x32x32 : Shape := ⟨5, ![4, 4, 2, 32, 32]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel
  bcast_S_S4x4x2x32x32 : S_.BroadcastsInDim S4x4x2x32x32 (![] : Fin 0 → Fin S4x4x2x32x32.rank)
  reducesTo_S4x4x2x32x32_S_d0_1_2_3_4 : S4x4x2x32x32.ReducesTo [0, 1, 2, 3, 4] S_

variable [Facts]

def fn_part1 {F : FTy → Type} [FloatOps F] (main_v13 : IVec S_ 1) (main_v16 : IVec S16x2048x3 1) : IVec S_ 1 :=
  let main_c_5 : IVec S_ 1 := constantI S_ 1 1#1
  let main_v17 : IVec S_ 1 := (fun x v => Host.reduce IntOp.andi x v reducesTo_S16x2048x3_S_d0_1_2 h_S_) main_v16 main_c_5
  let main_v18 : IVec S_ 1 := andi main_v13 main_v17
  main_v18

def fn {F : FTy → Type} [FloatOps F] (main_arg0 : FVec F S16x2048x3 .f32) (main_arg1 : FVec F S16x2048x3 .f32) (main_arg2 : FVec F S4x4x2x32x32 .f32) (main_arg3 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  let main_v9 : FVec F S4x4x2x32x32 .f32 := Host.absf main_arg2
  let main_cst_2 : FVec F S_ .f32 := constant S_ .f32 0x7F800000#32
  let main_v10 : FVec F S4x4x2x32x32 .f32 := broadcastInDim S4x4x2x32x32 ![] bcast_S_S4x4x2x32x32 main_cst_2
  let main_v11 : IVec S4x4x2x32x32 1 := cmpf .olt main_v9 main_v10
  let main_c_3 : IVec S_ 1 := constantI S_ 1 1#1
  let main_v12 : IVec S_ 1 := (fun x v => Host.reduce IntOp.andi x v reducesTo_S4x4x2x32x32_S_d0_1_2_3_4 h_S_) main_v11 main_c_3
  let main_v13 : IVec S_ 1 := andi main_v8 main_v12
  let main_v14 : FVec F S16x2048x3 .f32 := Host.absf main_arg3
  let main_cst_4 : FVec F S_ .f32 := constant S_ .f32 0x7F800000#32
  let main_v15 : FVec F S16x2048x3 .f32 := broadcastInDim S16x2048x3 ![] bcast_S_S16x2048x3 main_cst_4
  let main_v16 : IVec S16x2048x3 1 := cmpf .olt main_v14 main_v15
  fn_part1 (F := F) main_v13 main_v16
-- ==== Kernel.lean ====
abbrev S16x2048x3 : Shape := ⟨3, ![16, 2048, 3]⟩
abbrev S4x4x2x32x32 : Shape := ⟨5, ![4, 4, 2, 32, 32]⟩
abbrev S16x2048 : Shape := ⟨2, ![16, 2048]⟩
abbrev S8x128x3 : Shape := ⟨3, ![8, 128, 3]⟩
abbrev S8x2048x3 : Shape := ⟨3, ![8, 2048, 3]⟩
abbrev S8x128 : Shape := ⟨2, ![8, 128]⟩
abbrev S8x2048 : Shape := ⟨2, ![8, 2048]⟩
abbrev S8x128x1 : Shape := ⟨3, ![8, 128, 1]⟩
abbrev S8x1x2048 : Shape := ⟨3, ![8, 1, 2048]⟩
abbrev S8x128x2048 : Shape := ⟨3, ![8, 128, 2048]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S4x4x2x32x32, .f32⟩
  | .hbm, ⟨3, _⟩ => ⟨S16x2048x3, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x2048x3, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S8x128x3, .f32⟩
  | .local _ .vmem, ⟨1, _⟩ => ⟨S8x128x3, .f32⟩
  | .local _ .vmem, ⟨2, _⟩ => ⟨S8x2048x3, .f32⟩
  | .local _ .vmem, ⟨3, _⟩ => ⟨S8x2048x3, .f32⟩
  | .local _ .vmem, ⟨4, _⟩ => ⟨S8x128, .f32⟩
  | .local _ .vmem, ⟨5, _⟩ => ⟨S8x128, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_17 : BitVec 32 := 0#32
  let v28 : BitVec 1 := Scalar.cmpi .ne v27 c0_i32_17
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128x3_S8x128x3_0_0_0 : ∀ a, (![0, 0, 0] : Fin 3 → Nat) a + S8x128x3.size a ≤ S8x128x3.size a
  h_S8x128x3 : 0 < S8x128x3.numel
  inb_S8x2048x3_S8x2048x3_0_0_0 : ∀ a, (![0, 0, 0] : Fin 3 → Nat) a + S8x2048x3.size a ≤ S8x2048x3.size a
  h_S8x2048x3 : 0 < S8x2048x3.numel
  reduces_S8x128x3_S8x128 : S8x128x3.Reduces [2] S8x128
  shapeCasts_S8x128_S8x128x1 : S8x128.ShapeCasts S8x128x1
  reduces_S8x2048x3_S8x2048 : S8x2048x3.Reduces [2] S8x2048
  shapeCasts_S8x2048_S8x1x2048 : S8x2048.ShapeCasts S8x1x2048
  broadcasts_S8x128x1_S8x128x2048 : S8x128x1.Broadcasts S8x128x2048
  broadcasts_S8x1x2048_S8x128x2048 : S8x1x2048.Broadcasts S8x128x2048
  reduces_S8x128x2048_S8x128 : S8x128x2048.Reduces [2] S8x128
  inb_S8x128_S8x128_0_0 : ∀ a, (![0, 0] : Fin 2 → Nat) a + S8x128.size a ≤ S8x128.size a
  h_S8x128 : 0 < S8x128.numel
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  reduces_S8x128x2048_S8x2048 : S8x128x2048.Reduces [1] S8x2048
  shapeCasts_S4x4x2x32x32_S16x2048 : S4x4x2x32x32.ShapeCasts S16x2048
  reducesTo_S16x2048_S_d0_1 : S16x2048.ReducesTo [0, 1] S_
  h_S_ : 0 < S_.numel
  reducesTo_S16x2048x3_S_d0_1_2 : S16x2048x3.ReducesTo [0, 1, 2] S_
  dot_S8x128x3_S8x2048x3_S8x128x2048_2_2_1_1_0_0_wf : DotDims.WF S8x128x3 S8x2048x3 S8x128x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3.size a ≤ S16x2048x3.size a
  hwx0_0 : ∀ i : grid0.Coords, EltTy.bits .f32 = 32 ∨ (Rect.block (s := S16x2048x3) S8x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x3.size a ≤ S16x2048x3.size a
  hwx0_1 : ∀ i : grid0.Coords, EltTy.bits .f32 = 32 ∨ (Rect.block (s := S16x2048x3) S8x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x2048.size a
  hwx0_2 : ∀ i : grid0.Coords, EltTy.bits .f32 = 32 ∨ (Rect.block (s := S16x2048) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S16x2048.size a
  hwx0_3 : ∀ i : grid0.Coords, EltTy.bits .f32 = 32 ∨ (Rect.block (s := S16x2048) S8x2048.size (cc0_transform_3 i) (hinb0_3 i)).WholeWords (EltTy.packing .f32)

variable [Facts₀]

def dot_S8x128x3_S8x2048x3_S8x128x2048_2_2_1_1_0_0 : DotDims S8x128x3 S8x2048x3 S8x128x2048 where
  lhsContracting := [2]
  rhsContracting := [2]
  lhsNonContracting := [1]
  rhsNonContracting := [1]
  lhsBatch := [0]
  rhsBatch := [0]
  wf := dot_S8x128x3_S8x2048x3_S8x128x2048_2_2_1_1_0_0_wf

abbrev win0_0 : Pipeline.Window sig grid0 :=
  Pipeline.Window.ofSpec (Memref.whole main_arg1) S8x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048x3 : Shape := ⟨3, ![16, 2048, 3]⟩
abbrev S4x4x2x32x32 : Shape := ⟨5, ![4, 4, 2, 32, 32]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S4x4x2x32x32, .f32⟩
  | .hbm, ⟨3, _⟩ => ⟨S16x2048x3, .f32⟩
  | .hbm, ⟨4, _⟩ => ⟨S16x2048x3, .f32⟩
  | .hbm, ⟨5, _⟩ => ⟨S_, .f32⟩
  | .hbm, ⟨6, _⟩ => ⟨S16x2048, .f32⟩
  | .hbm, ⟨7, _⟩ => ⟨S16x2048x3, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x2048x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_cst_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048x2048_S16x2048_d1 : S16x2048x2048.ReducesTo [1] S16x2048
  shapeCasts_S4x4x2x32x32_S16x2048 : S4x4x2x32x32.ShapeCasts S16x2048
  reducesTo_S16x2048_S_d0_1 : S16x2048.ReducesTo [0, 1] S_
  reducesTo_S16x2048x3_S_d0_1_2 : S16x2048x3.ReducesTo [0, 1, 2] S_
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.KerPieces.lean ====
/-
  What one run of the kernel body leaves behind, as values.

  In every control case the block of nearest-neighbour distances for this tile's points of the first cloud is one store
  of a value computed from the two input blocks alone.  The carried scratch ends at the entrywise minimum of what it held
  and this tile's column minima; at the first tile of a batch block "what it held" is the +∞ splat stored just before.  At
  the last tile the second output's block is a copy of the scratch as just updated.  Each statement holds at any float
  instance: nothing here looks inside the arithmetic.
-/
import proofs.«106391_j39951785787527_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first output: this tile's nearest-neighbour distances -/

theorem nearY_A (c : Dev nD) (i : grid0.Coords) (arg2 : Memref sig .tc .vmem S8x128x3 .f32) (harg2 : arg2.IsWhole) (arg3 : Memref sig .tc .vmem S8x2048x3 .f32) (harg3 : arg3.IsWhole) (arg4 : Memref sig .tc .vmem S8x128 .f32) (harg4 : arg4.IsWhole) (arg5 : Memref sig .tc .vmem S8x2048 .f32) (harg5 : arg5.IsWhole) (arg6 : Memref sig .tc .vmem S8x2048 .f32) (harg6 : arg6.IsWhole) (hc0 : cond0_0 i) (hc1 : ¬cond0_1 i) (x0 : Vec F S8x128x3 .f32) (x1 : Vec F S8x2048x3 .f32) :
    out0_A_2 c i arg2 harg2 arg3 harg3 arg4 harg4 arg5 harg5 arg6 harg6 hc0 hc1 x0 x1 = k0_pay2 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero hz2]
  simp only [View.readAt_eq_ld, harg2.read_unread, harg3.read_unread, View.ld_unit_zero (S := S8x128x3) hz3,
    View.ld_unit_zero (S := S8x2048x3) hz3]

theorem nearY_B (c : Dev nD) (i : grid0.Coords) (arg2 : Memref sig .tc .vmem S8x128x3 .f32) (harg2 : arg2.IsWhole) (arg3 : Memref sig .tc .vmem S8x2048x3 .f32) (harg3 : arg3.IsWhole) (arg4 : Memref sig .tc .vmem S8x128 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : ¬cond0_1 i) (x0 : Vec F S8x128x3 .f32) (x1 : Vec F S8x2048x3 .f32)
    (xs0 : Vec F S8x2048 .f32) : out0_B_2 c i arg2 harg2 arg3 harg3 arg4 harg4 arg5 harg5 arg6 harg6 hc0 hc1 x0 x1 xs0 = k0_pay2 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, View.ld_unit_zero (S := S8x128x3) hz3,
    View.ld_unit_zero (S := S8x2048x3) hz3]

theorem nearY_C (c : Dev nD) (i : grid0.Coords) (arg2 : Memref sig .tc .vmem S8x128x3 .f32) (harg2 : arg2.IsWhole) (arg3 : Memref sig .tc .vmem S8x2048x3 .f32) (harg3 : arg3.IsWhole) (arg4 : Memref sig .tc .vmem S8x128 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : cond0_1 i) (x0 : Vec F S8x128x3 .f32) (x1 : Vec F S8x2048x3 .f32)
    (xs0 : Vec F S8x2048 .f32) : out0_C_2 c i arg2 harg2 arg3 harg3 arg4 harg4 arg5 harg5 arg6 harg6 hc0 hc1 x0 x1 xs0 = k0_pay2 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, View.ld_unit_zero (S := S8x128x3) hz3,
    View.ld_unit_zero (S := S8x2048x3) hz3]

/-! ## The carried scratch: the running column minima -/

theorem scratch_A (c : Dev nD) (i : grid0.Coords) (arg2 : Memref sig .tc .vmem S8x128x3 .f32) (harg2 : arg2.IsWhole) (arg3 : Memref sig .tc .vmem S8x2048x3 .f32) (harg3 : arg3.IsWhole) (arg4 : Memref sig .tc .vmem S8x128 .f32) (harg4 : arg4.IsWhole) (arg5 : Memref sig .tc .vmem S8x2048 .f32) (harg5 : arg5.IsWhole) (arg6 : Memref sig .tc .vmem S8x2048 .f32) (harg6 : arg6.IsWhole) (hc0 : cond0_0 i) (hc1 : ¬cond0_1 i) (x0 : Vec F S8x128x3 .f32) (x1 : Vec F S8x2048x3 .f32) :
    sout0_A_0 c i arg2 harg2 arg3 harg3 arg4 harg4 arg5 harg5 arg6 harg6 hc0 hc1 x0 x1 = k0_pay4 x0 x1 (k0_pay3 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S8x2048) hz2, View.readCov_unit_zero (S := S8x2048) _ hz2]
  simp only [View.readAt_eq_ld, harg2.read_unread, harg3.read_unread, View.ld_unit_zero (S := S8x128x3) hz3,
    View.ld_unit_zero (S := S8x2048x3) hz3]

theorem scratch_B (c : Dev nD) (i : grid0.Coords) (arg2 : Memref sig .tc .vmem S8x128x3 .f32) (harg2 : arg2.IsWhole) (arg3 : Memref sig .tc .vmem S8x2048x3 .f32) (harg3 : arg3.IsWhole) (arg4 : Memref sig .tc .vmem S8x128 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : ¬cond0_1 i) (x0 : Vec F S8x128x3 .f32) (x1 : Vec F S8x2048x3 .f32)
    (xs0 : Vec F S8x2048 .f32) : sout0_B_0 c i arg2 harg2 arg3 harg3 arg4 harg4 arg5 harg5 arg6 harg6 hc0 hc1 x0 x1 xs0 = k0_pay4 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S8x128x3) hz3,
    View.ld_unit_zero (S := S8x2048x3) hz3, View.ld_unit_zero (S := S8x2048) hz2]

theorem scratch_C (c : Dev nD) (i : grid0.Coords) (arg2 : Memref sig .tc .vmem S8x128x3 .f32) (harg2 : arg2.IsWhole) (arg3 : Memref sig .tc .vmem S8x2048x3 .f32) (harg3 : arg3.IsWhole) (arg4 : Memref sig .tc .vmem S8x128 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : cond0_1 i) (x0 : Vec F S8x128x3 .f32) (x1 : Vec F S8x2048x3 .f32)
    (xs0 : Vec F S8x2048 .f32) : sout0_C_0 c i arg2 harg2 arg3 harg3 arg4 harg4 arg5 harg5 arg6 harg6 hc0 hc1 x0 x1 xs0 = k0_pay4 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S8x128x3) hz3,
    View.ld_unit_zero (S := S8x2048x3) hz3, View.ld_unit_zero (S := S8x2048) hz2]

/-! ## The second output at the last tile: the scratch as just updated -/

theorem nearX_C (c : Dev nD) (i : grid0.Coords) (arg2 : Memref sig .tc .vmem S8x128x3 .f32) (harg2 : arg2.IsWhole) (arg3 : Memref sig .tc .vmem S8x2048x3 .f32) (harg3 : arg3.IsWhole) (arg4 : Memref sig .tc .vmem S8x128 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (hc1 : cond0_1 i) (x0 : Vec F S8x128x3 .f32) (x1 : Vec F S8x2048x3 .f32)
    (xs0 : Vec F S8x2048 .f32) : out0_C_3 c i arg2 harg2 arg3 harg3 arg4 harg4 arg5 harg5 arg6 harg6 hc0 hc1 x0 x1 xs0 = k0_pay4 x0 x1 xs0 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S8x128x3) hz3,
    View.ld_unit_zero (S := S8x2048x3) hz3, View.ld_unit_zero (S := S8x2048) hz2, View.readCov_unit_zero (S := S8x2048) _ hz2]

end Cert.KernelIdeal.Pieces

end
-- ==== Proof.KerSteps.lean ====
/-
  The kernel's three tracked values after every grid point, case by case.

  The grid runs two batch blocks of sixteen tiles each; point `t` is tile `t mod 16` of block `t / 16`.  Whatever the
  control case, after point `t`
    · the first output's staging buffer holds this tile's nearest-neighbour distances, a function of the point's two
      input blocks alone;
    · the carried scratch holds the scratch update of the two input blocks over what it held before: the reset value at
      a block's first tile, and otherwise what the point before left;
    · at a block's last tile the second output's staging buffer holds the same as the scratch.
  All at any float instance.
-/
import proofs.«106391_j39951785787527_1_alg».proof.Proof.KerPieces

set_option maxRecDepth 16384

noncomputable section

namespace Cert.KernelIdeal.Steps

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- What the scratch holds when point `t`'s update reads it. -/
def carried (c : Dev nD) (t : Fin cfg0.N) : Vec F S8x2048 .f32 :=
  if t.val % 16 = 0 then k0_pay3 (F := F) else (outsAt0 m c (t.val - 1) (Nat.lt_of_le_of_lt (Nat.sub_le _ _) t.isLt)).2.2

/-- The first output after point `t`. -/
theorem nearY_step (c : Dev nD) (t : Fin cfg0.N) :
    (outsAt0 m c t.val t.isLt).1 = k0_pay2 (iblk m c 0 t) (iblk m c 1 t) := by
  have hN : t.val < 32 := lt_of_lt_of_eq t.isLt (show cfg0.N = 32 from N_0)
  by_cases h0 : t.val % 16 = 0
  · have h1 : ¬t.val % 16 = 15 := by omega
    rw [outsAt0_A m c t h0 h1]; dsimp only
    exact nearY_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 16 = 15
    · rw [outsAt0_C m c t h0 h1]; dsimp only
      exact nearY_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]; dsimp only
      exact nearY_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- The carried scratch after point `t`. -/
theorem scratch_step (c : Dev nD) (t : Fin cfg0.N) :
    (outsAt0 m c t.val t.isLt).2.2 = k0_pay4 (iblk m c 0 t) (iblk m c 1 t) (carried m c t) := by
  have hN : t.val < 32 := lt_of_lt_of_eq t.isLt (show cfg0.N = 32 from N_0)
  unfold carried
  by_cases h0 : t.val % 16 = 0
  · have h1 : ¬t.val % 16 = 15 := by omega
    rw [if_pos h0, outsAt0_A m c t h0 h1]; dsimp only
    exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · rw [if_neg h0]
    by_cases h1 : t.val % 16 = 15
    · rw [outsAt0_C m c t h0 h1]; dsimp only
      exact scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]; dsimp only
      exact scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- The second output after a block's last tile: what the scratch holds. -/
theorem nearX_last (c : Dev nD) (t : Fin cfg0.N) (h1 : t.val % 16 = 15) :
    (outsAt0 m c t.val t.isLt).2.1 = (outsAt0 m c t.val t.isLt).2.2 := by
  have h0 : ¬t.val % 16 = 0 := by omega
  rw [outsAt0_C m c t h0 h1]; dsimp only
  exact (nearX_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
    (scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm

end Cert.KernelIdeal.Steps

end
-- ==== Proof.Spec.lean ====
/-
  What both programs compute, as one function of the four argument arrays.

  Two batches of point clouds `x`, `y` (sixteen clouds of 2048 points in three coordinates).  For a point `i` of `x` and a
  point `j` of `y` in the same cloud `b` the squared distance is taken in the grouping
      (|xᵢ|² + |yⱼ|²) − 2·(xᵢ · yⱼ),
  each of the three terms a sum over the three coordinates.  `toNearestY` is, for every point of `x`, the least such
  distance over the points of `y`; `toNearestX` is, for every point of `y`, the least over the points of `x`; both minima are
  folds of `min` from the f32 word of +∞.  The loss adds three means: of `toNearestX` weighted entrywise by a mask, of
  `toNearestY`, and of the squares of a fourth array.

  Everything is stated over the extended reals, where sums and minima may be taken in any order and grouping; no law
  used below needs an entry to be finite.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- `B` clouds of `P` points in three coordinates. -/
abbrev Cloud (B P : ℕ) := (⟨3, ![B, P, 3]⟩ : Shape).Idx → EReal

/-- One value per point: `B` clouds of `P` points. -/
abbrev PerPoint (B P : ℕ) := (⟨2, ![B, P]⟩ : Shape).Idx → EReal

/-- The start value of every minimum: the f32 word of +∞ read as an extended real. -/
abbrev start : EReal := Ideal.ofBits .f32 0x7F800000#32

/-- The squared distance between point `i` of `x` and point `j` of `y` in cloud `b`, in the grouping both programs use. -/
def sqDist {B P Q : ℕ} (x : Cloud B P) (y : Cloud B Q) (b : Fin B) (i : Fin P) (j : Fin Q) : EReal :=
  ((∑ k : Fin 3, x (ix3 b i k) * x (ix3 b i k)) + ∑ k : Fin 3, y (ix3 b j k) * y (ix3 b j k))
    - Ideal.ofBits .f32 0x40000000#32 * ∑ k : Fin 3, x (ix3 b i k) * y (ix3 b j k)

/-- The squared distance depends only on the two points' coordinates: clouds that agree on them give the same value. -/
theorem sqDist_congr {B P Q B' P' Q' : ℕ} {x : Cloud B P} {y : Cloud B Q} {x' : Cloud B' P'} {y' : Cloud B' Q'}
    {b : Fin B} {i : Fin P} {j : Fin Q} {b' : Fin B'} {i' : Fin P'} {j' : Fin Q'}
    (hx : ∀ k : Fin 3, x (ix3 b i k) = x' (ix3 b' i' k)) (hy : ∀ k : Fin 3, y (ix3 b j k) = y' (ix3 b' j' k)) :
    sqDist x y b i j = sqDist x' y' b' i' j' := by
  unfold sqDist
  simp only [hx, hy]

/-- For each point of `x`: the least squared distance to a point of `y` of the same cloud. -/
def toNearestY {B P Q : ℕ} (x : Cloud B P) (y : Cloud B Q) : PerPoint B P :=
  fun q => Finset.univ.fold min start fun j : Fin Q => sqDist x y (q 0) (q 1) j

/-- For each point of `y`: the least squared distance to a point of `x` of the same cloud. -/
def toNearestX {B P Q : ℕ} (x : Cloud B P) (y : Cloud B Q) : PerPoint B Q :=
  fun q => Finset.univ.fold min start fun i : Fin P => sqDist x y (q 0) i (q 1)

theorem toNearestY_apply {B P Q : ℕ} (x : Cloud B P) (y : Cloud B Q) (b : Fin B) (i : Fin P) :
    toNearestY x y (ix2 b i) = Finset.univ.fold min start fun j : Fin Q => sqDist x y b i j := rfl

theorem toNearestX_apply {B P Q : ℕ} (x : Cloud B P) (y : Cloud B Q) (b : Fin B) (j : Fin Q) :
    toNearestX x y (ix2 b j) = Finset.univ.fold min start fun i : Fin P => sqDist x y b i j := rfl

/-- The loss from the two nearest-neighbour arrays `cx` (per point of `x`) and `cy` (per point of `y`), the mask and the
    fourth array: the mean of `cy` times the mask laid out as 16 × 2048, plus the mean of `cx`, plus the mean of the fourth
    array's squares — each mean a host sum from zero divided by the count's f32 word (32768, 32768, 98304), added in this
    order.  The shape facts are arguments: a proposition's proofs are all equal, so either program's own witnesses fit. -/
def loss (hcast : (⟨5, ![4, 4, 2, 32, 32]⟩ : Shape).ShapeCasts ⟨2, ![16, 2048]⟩)
    (h2 : (⟨2, ![16, 2048]⟩ : Shape).ReducesTo [0, 1] ⟨0, ![]⟩)
    (h3 : (⟨3, ![16, 2048, 3]⟩ : Shape).ReducesTo [0, 1, 2] ⟨0, ![]⟩)
    (h0 : 0 < (⟨0, ![]⟩ : Shape).numel)
    (cx cy : PerPoint 16 2048) (mask : (⟨5, ![4, 4, 2, 32, 32]⟩ : Shape).Idx → EReal) (dw : Cloud 16 2048) :
    (⟨0, ![]⟩ : Shape).Idx → EReal :=
  addf (F := Ideal) (φ := .f32)
    (addf (F := Ideal) (φ := .f32)
      (Host.divf (F := Ideal) (φ := .f32)
        (Host.reduceAdd (F := Ideal) (φ := .f32) (mulf (F := Ideal) (φ := .f32) cy (shapeCast ⟨2, ![16, 2048]⟩ mask hcast))
          (constant (F := Ideal) ⟨0, ![]⟩ .f32 0x00000000#32) h2 h0)
        (constant (F := Ideal) ⟨0, ![]⟩ .f32 0x47000000#32))
      (Host.divf (F := Ideal) (φ := .f32)
        (Host.reduceAdd (F := Ideal) (φ := .f32) cx (constant (F := Ideal) ⟨0, ![]⟩ .f32 0x00000000#32) h2 h0)
        (constant (F := Ideal) ⟨0, ![]⟩ .f32 0x47000000#32)))
    (Host.divf (F := Ideal) (φ := .f32)
      (Host.reduceAdd (F := Ideal) (φ := .f32) (mulf (F := Ideal) (φ := .f32) dw dw)
        (constant (F := Ideal) ⟨0, ![]⟩ .f32 0x00000000#32) h3 h0)
      (constant (F := Ideal) ⟨0, ![]⟩ .f32 0x47C00000#32))

end Cert.Chamfer

end
-- ==== Proof.LibRank3.lean ====
/-
  Rank-3 arrays read at an index given by coordinates.

  Layout: an `[a, b]` array viewed as `[a, b, 1]` or as `[a, 1, c]`, and those two laid along the missing axis of an
  `[a, b, c]` array.  Reductions over the extended reals: the sum along the last axis of an `[a, b, c]` array, its minimum
  along the last axis and along the middle axis (each a fold of `min` over that axis's coordinates from the accumulator
  word's value), and the product of an `[B, M, K]` array with an `[B, N, K]` array that is batched over the first axis and
  contracts the LAST axis of both: at (b, p, q) the sum over k of left (b, p, k) times right (b, q, k).
-/
import Idealize.ShloMosaic.Lib.Pipeline.Value
import Idealize.ShloMosaic.Lib.ValueIdx
import Idealize.ShloMosaic.PureOps.Ideal.Laws
import Idealize.ShloMosaic.PureOps.Reduce

noncomputable section

namespace Cert.Rank3

open Idealize.ShloMosaic Idealize.ShloMosaic.ValueIdx

/-! ## Layout -/

section Layout
variable {α : Type} {a b c : ℕ}

/-- An `[a, b]` array viewed as `[a, b, 1]` reads, at `(p, q, u)`, the operand at `(p, q)`. -/
theorem shapeCast_ab_ab1_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, c]` array viewed as `[a, 1, c]` reads, at `(p, u, r)`, the operand at `(p, r)`. -/
theorem shapeCast_ac_a1c_apply (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, b, 1]` array laid along the last axis of `[a, b, c]` reads, at `(p, q, r)`, its entry `(p, q, 0)`. -/
theorem broadcastTo_ab1_abc_apply (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array laid along the middle axis of `[a, b, c]` reads, at `(p, q, r)`, its entry `(p, 0, r)`. -/
theorem broadcastTo_a1c_abc_apply (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

/-! ## Reductions along one axis, over the extended reals -/

section Reduce
variable {φ : FTy} {a b c : ℕ}

/-- The sum along the last axis at `(p, q)`: the sum over `k` of the entries `(p, q, k)`. -/
theorem sum_last_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with | ⟨0, _⟩ => rfl | ⟨1, _⟩ => rfl | ⟨2, _⟩ => rfl)))

/-- A minimum along one axis, at a result index: the fold of `min` from the accumulator word's value over that axis's
    coordinates. -/
theorem min_single {s t : Shape} {ax : Fin s.rank} (src : FVec Ideal s φ) (acc : BitVec φ.bits) (h : s.Reduces [ax] t)
    (hφ : FKind.Formats φ) (hacc : acc = FKind.minimumf.neutral φ hφ) (j : t.Idx) :
    multiReduction .minimumf [ax] t src acc h hφ hacc j
      = (Finset.univ : Finset (Fin (s.size ax))).fold min (Ideal.ofBits φ acc) (src ∘ h.lift j) := by
  rw [multiReduction_minimumf_eq_fold]; exact h.fold_filter_drop_single _ _ src j

/-- The minimum along the last axis at `(p, q)`: the least of the entries `(p, q, k)` and the accumulator word's value. -/
theorem min_last_apply (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.minimumf.neutral φ hφ) (p : Fin a) (q : Fin b) :
    multiReduction .minimumf [2] ⟨2, ![a, b]⟩ src acc h hφ hacc (ix2 p q)
      = Finset.univ.fold min (Ideal.ofBits φ acc) fun k : Fin c => src (ix3 p q k) :=
  (min_single src acc h hφ hacc (ix2 p q)).trans
    (Finset.fold_congr fun k _ => congrArg src (funext fun ax => Fin.ext (by
      match ax with | ⟨0, _⟩ => rfl | ⟨1, _⟩ => rfl | ⟨2, _⟩ => rfl)))

/-- The minimum along the middle axis at `(p, r)`: the least of the entries `(p, k, r)` and the accumulator word's value. -/
theorem min_mid_apply (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (p : Fin a) (r : Fin c) :
    multiReduction .minimumf [1] ⟨2, ![a, c]⟩ src acc h hφ hacc (ix2 p r)
      = Finset.univ.fold min (Ideal.ofBits φ acc) fun k : Fin b => src (ix3 p k r) :=
  (min_single src acc h hφ hacc (ix2 p r)).trans
    (Finset.fold_congr fun k _ => congrArg src (funext fun ax => Fin.ext (by
      match ax with | ⟨0, _⟩ => rfl | ⟨1, _⟩ => rfl | ⟨2, _⟩ => rfl)))

end Reduce

/-! ## The batched product that contracts the last axis of both operands -/

section Product
variable {B M N K : ℕ}

/-- Its dimension numbers, as a record over their well-formedness evidence. -/
abbrev lastDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ := ⟨[2], [2], [1], [1], [0], [0], wf⟩

variable (wf : DotDims.WF (⟨3, ![B, M, K]⟩ : Shape) ⟨3, ![B, N, K]⟩ ⟨3, ![B, M, N]⟩ [2] [2] [1] [1] [0] [0])

theorem lhs_axis0 (j : (⟨3, ![B, M, N]⟩ : Shape).Idx) (q : (lastDims wf).contr.Idx) :
    ((lastDims wf).lhsIdx j q 0).val = (j 0).val := by
  unfold DotDims.lhsIdx
  rw [dif_pos (show (0 : Fin (⟨3, ![B, M, K]⟩ : Shape).rank) ∈ (lastDims wf).lhsBatch from List.mem_singleton.mpr rfl)]
  rfl
theorem lhs_axis1 (j : (⟨3, ![B, M, N]⟩ : Shape).Idx) (q : (lastDims wf).contr.Idx) :
    ((lastDims wf).lhsIdx j q 1).val = (j 1).val := by
  unfold DotDims.lhsIdx
  rw [dif_neg (show ¬(1 : Fin (⟨3, ![B, M, K]⟩ : Shape).rank) ∈ (lastDims wf).lhsBatch from
      fun h => Nat.one_ne_zero (congrArg Fin.val (List.mem_singleton.mp h))),
    dif_pos (show (1 : Fin (⟨3, ![B, M, K]⟩ : Shape).rank) ∈ (lastDims wf).lhsNonContracting from List.mem_singleton.mpr rfl)]
  rfl
theorem lhs_axis2 (j : (⟨3, ![B, M, N]⟩ : Shape).Idx) (q : (lastDims wf).contr.Idx) :
    ((lastDims wf).lhsIdx j q 2).val = (q ⟨0, Nat.one_pos⟩).val :=
  (lastDims wf).lhsIdx_val_of_single rfl j q
theorem rhs_axis0 (j : (⟨3, ![B, M, N]⟩ : Shape).Idx) (q : (lastDims wf).contr.Idx) :
    ((lastDims wf).rhsIdx j q 0).val = (j 0).val := by
  unfold DotDims.rhsIdx
  rw [dif_pos (show (0 : Fin (⟨3, ![B, N, K]⟩ : Shape).rank) ∈ (lastDims wf).rhsBatch from List.mem_singleton.mpr rfl)]
  rfl
theorem rhs_axis1 (j : (⟨3, ![B, M, N]⟩ : Shape).Idx) (q : (lastDims wf).contr.Idx) :
    ((lastDims wf).rhsIdx j q 1).val = (j 2).val := by
  unfold DotDims.rhsIdx
  rw [dif_neg (show ¬(1 : Fin (⟨3, ![B, N, K]⟩ : Shape).rank) ∈ (lastDims wf).rhsBatch from
      fun h => Nat.one_ne_zero (congrArg Fin.val (List.mem_singleton.mp h))),
    dif_pos (show (1 : Fin (⟨3, ![B, N, K]⟩ : Shape).rank) ∈ (lastDims wf).rhsNonContracting from List.mem_singleton.mpr rfl)]
  rfl
theorem rhs_axis2 (j : (⟨3, ![B, M, N]⟩ : Shape).Idx) (q : (lastDims wf).contr.Idx) :
    ((lastDims wf).rhsIdx j q 2).val = (q ⟨0, Nat.one_pos⟩).val :=
  (lastDims wf).rhsIdx_val_of_single rfl j q

/-- The left operand's index at result index (b, p, q) and contraction coordinate k is (b, p, k). -/
theorem lhsIdx_ix3 (b : Fin B) (p : Fin M) (q : Fin N) (k : Fin K) :
    (lastDims wf).lhsIdx (ix3 b p q) ((contrEquiv1 (lastDims wf) K rfl rfl).symm k) = ix3 b p k :=
  funext fun ax => Fin.ext (by
    have hk := contrEquiv1_symm_val (lastDims wf) K rfl rfl k
    match ax with
    | ⟨0, _⟩ => exact lhs_axis0 wf _ _
    | ⟨1, _⟩ => exact lhs_axis1 wf _ _
    | ⟨2, _⟩ => exact (lhs_axis2 wf _ _).trans hk)

/-- The right operand's index at result index (b, p, q) and contraction coordinate k is (b, q, k). -/
theorem rhsIdx_ix3 (b : Fin B) (p : Fin M) (q : Fin N) (k : Fin K) :
    (lastDims wf).rhsIdx (ix3 b p q) ((contrEquiv1 (lastDims wf) K rfl rfl).symm k) = ix3 b q k :=
  funext fun ax => Fin.ext (by
    have hk := contrEquiv1_symm_val (lastDims wf) K rfl rfl k
    match ax with
    | ⟨0, _⟩ => exact rhs_axis0 wf _ _
    | ⟨1, _⟩ => exact rhs_axis1 wf _ _
    | ⟨2, _⟩ => exact (rhs_axis2 wf _ _).trans hk)

/-- The product into the zero accumulator at (b, p, q): the sum over the contracted coordinate. -/
theorem matmul_zero_last_apply {φ₁ φ₂ : FTy} (prec : Option ContractPrecision)
    (lhs : FVec Ideal ⟨3, ![B, M, K]⟩ φ₁) (rhs : FVec Ideal ⟨3, ![B, N, K]⟩ φ₂) (b : Fin B) (p : Fin M) (q : Fin N) :
    FloatOps.matmul (lastDims wf) prec lhs rhs (constant ⟨3, ![B, M, N]⟩ .f32 0x00000000#32) (ix3 b p q)
      = ∑ k : Fin K, lhs (ix3 b p k) * rhs (ix3 b q k) := by
  rw [Ideal.matmul_constant_zero_apply, ← Equiv.sum_comp (contrEquiv1 (lastDims wf) K rfl rfl).symm]
  refine Finset.sum_congr rfl fun k _ => ?_
  rw [lhsIdx_ix3 wf b p q k, rhsIdx_ix3 wf b p q k]

end Product

end Cert.Rank3

end
-- ==== Proof.KerPayload.lean ====
/-
  The kernel body's arithmetic, entry by entry, over the extended reals.

  From a block `X0` of eight clouds' 128 points and a block `X1` of the same eight clouds' 2048 points the body forms the
  8 × 128 × 2048 block of squared distances: the row sums of squares of `X0` laid along the last axis, those of `X1` laid
  along the middle axis, added, minus twice the batched product that contracts the coordinate axis of both blocks.  Entry
  (r, i, j) is `sqDist X0 X1 r i j`.  The first stored value is its minimum along the last axis; the scratch update is
  the entrywise minimum of the scratch and its minimum along the middle axis; the reset value is the +∞ word everywhere.
-/
import proofs.«106391_j39951785787527_1_alg».proof.Proof.Gen.KernelIdeal.Skeleton
import proofs.«106391_j39951785787527_1_alg».proof.Proof.Spec
import proofs.«106391_j39951785787527_1_alg».proof.Proof.LibRank3

noncomputable section

namespace Cert.KernelIdeal.Payload

open Cert.KernelIdeal Cert.KernelIdeal.Gen Cert.Chamfer Cert.Rank3
open Idealize.ShloMosaic Idealize.ShloMosaic.ValueIdx

/-- The squared norms of the first block's points, laid along the last axis. -/
theorem normX_apply (X0 : Vec Ideal S8x128x3 .f32) (r : Fin 8) (i : Fin 128) (j : Fin 2048) :
    broadcastTo S8x128x2048
        (shapeCast S8x128x1
          (multiReduction (F := Ideal) (φ := .f32) .add [2] S8x128 (mulf (F := Ideal) (φ := .f32) X0 X0) 0x00000000#32 reduces_S8x128x3_S8x128 (.inl rfl) rfl)
          shapeCasts_S8x128_S8x128x1)
        broadcasts_S8x128x1_S8x128x2048 (ix3 r i j)
      = ∑ k : Fin 3, X0 (ix3 r i k) * X0 (ix3 r i k) :=
  (broadcastTo_ab1_abc_apply _ _ r i j).trans
    ((shapeCast_ab_ab1_apply _ _ r i 0).trans (sum_last_apply (mulf (F := Ideal) (φ := .f32) X0 X0) _ _ _ _ r i))

/-- The squared norms of the second block's points, laid along the middle axis. -/
theorem normY_apply (X1 : Vec Ideal S8x2048x3 .f32) (r : Fin 8) (i : Fin 128) (j : Fin 2048) :
    broadcastTo S8x128x2048
        (shapeCast S8x1x2048
          (multiReduction (F := Ideal) (φ := .f32) .add [2] S8x2048 (mulf (F := Ideal) (φ := .f32) X1 X1) 0x00000000#32 reduces_S8x2048x3_S8x2048 (.inl rfl) rfl)
          shapeCasts_S8x2048_S8x1x2048)
        broadcasts_S8x1x2048_S8x128x2048 (ix3 r i j)
      = ∑ k : Fin 3, X1 (ix3 r j k) * X1 (ix3 r j k) :=
  (broadcastTo_a1c_abc_apply _ _ r i j).trans
    ((shapeCast_ac_a1c_apply _ _ r 0 j).trans (sum_last_apply (mulf (F := Ideal) (φ := .f32) X1 X1) _ _ _ _ r j))

/-- The batched product of the two blocks at (r, i, j): the inner product of point `i` and point `j` of cloud `r`. -/
theorem cross_apply (X0 : Vec Ideal S8x128x3 .f32) (X1 : Vec Ideal S8x2048x3 .f32) (r : Fin 8) (i : Fin 128) (j : Fin 2048) :
    matmul (F := Ideal) (φ₁ := .f32) (φ₂ := .f32) dot_S8x128x3_S8x2048x3_S8x128x2048_2_2_1_1_0_0 none X0 X1 (constant (F := Ideal) S8x128x2048 .f32 0x00000000#32) (ix3 r i j)
      = ∑ k : Fin 3, X0 (ix3 r i k) * X1 (ix3 r j k) :=
  matmul_zero_last_apply dot_S8x128x3_S8x2048x3_S8x128x2048_2_2_1_1_0_0_wf none X0 X1 r i j

/-- Entry (r, i, j) of the body's distance block. -/
theorem dist_apply (X0 : Vec Ideal S8x128x3 .f32) (X1 : Vec Ideal S8x2048x3 .f32) (r : Fin 8) (i : Fin 128) (j : Fin 2048) :
    k0_pay1 (F := Ideal) X0 X1 (ix3 r i j) = sqDist X0 X1 r i j := by
  unfold sqDist
  refine Eq.trans ?_ (congrArg₂ (fun u v : EReal => u - Ideal.ofBits .f32 0x40000000#32 * v)
    (congrArg₂ (fun u v : EReal => u + v) (normX_apply X0 r i j) (normY_apply X1 r i j)) (cross_apply X0 X1 r i j))
  rfl

/-- The first stored value at (r, i): the least squared distance from point `i` to a point of the second block. -/
theorem nearY_apply (X0 : Vec Ideal S8x128x3 .f32) (X1 : Vec Ideal S8x2048x3 .f32) (r : Fin 8) (i : Fin 128) :
    k0_pay2 (F := Ideal) X0 X1 (ix2 r i) = Finset.univ.fold min start fun j : Fin 2048 => sqDist X0 X1 r i j := by
  unfold k0_pay2
  exact (min_last_apply (k0_pay1 (F := Ideal) X0 X1) 0x7F800000#32 reduces_S8x128x2048_S8x128 (.inl rfl) rfl r i).trans
    (Finset.fold_congr fun j _ => dist_apply X0 X1 r i j)

/-- The scratch update at (r, j): the lesser of the scratch's entry and the least squared distance from a point of the
    first block to point `j`. -/
theorem runMin_apply (X0 : Vec Ideal S8x128x3 .f32) (X1 : Vec Ideal S8x2048x3 .f32) (acc : Vec Ideal S8x2048 .f32)
    (r : Fin 8) (j : Fin 2048) :
    k0_pay4 (F := Ideal) X0 X1 acc (ix2 r j)
      = min (acc (ix2 r j)) (Finset.univ.fold min start fun i : Fin 128 => sqDist X0 X1 r i j) := by
  unfold k0_pay4
  refine (congrFun (shapeCast_self _ _) (ix2 r j)).trans ?_
  exact congrArg (min (acc (ix2 r j)))
    ((min_mid_apply (k0_pay1 (F := Ideal) X0 X1) 0x7F800000#32 reduces_S8x128x2048_S8x2048 (.inl rfl) rfl r j).trans
      (Finset.fold_congr fun i _ => dist_apply X0 X1 r i j))

/-- The reset value: the +∞ word at every entry. -/
theorem reset_apply (q : S8x2048.Idx) : k0_pay3 (F := Ideal) q = start := by
  unfold k0_pay3
  exact congrFun (shapeCast_self _ _) q

end Cert.KernelIdeal.Payload

end
-- ==== Proof.LibTiledMin.lean ====
/-
  A minimum taken tile by tile is the minimum over the whole axis.

  An axis of `w * N` positions is cut into `N` consecutive tiles of `w`.  A running value starts as the minimum of a start
  value `b` and the first tile's minimum, and at every later tile becomes the minimum of what it was and that tile's
  minimum (each tile's minimum itself folded from `b`).  After the last tile the running value is the fold of `min` from `b`
  over all `w * N` positions.  Nothing is assumed of `b` (it need not be a top element) and nothing of the order beyond
  linearity: the proof characterises both sides by their lower bounds.
-/
import Idealize.ShloMosaic.PureOps.Reduce

namespace Cert.TiledMin

variable {α : Type*} [LinearOrder α]

/-- The lower bounds of the running minimum after tile `n`: exactly the lower bounds of the start value and of every entry
    of tiles `0 … n`. -/
theorem le_running_iff (w N : ℕ) (b : α) (f : ℕ → Fin w → α) (acc : ℕ → α)
    (h0 : acc 0 = min b (Finset.univ.fold min b (f 0)))
    (hs : ∀ n, n + 1 < N → acc (n + 1) = min (acc n) (Finset.univ.fold min b (f (n + 1)))) (c : α) :
    ∀ n, n < N → (c ≤ acc n ↔ c ≤ b ∧ ∀ n', n' ≤ n → ∀ i', c ≤ f n' i') := by
  intro n
  induction n with
  | zero =>
    intro _
    rw [h0, le_min_iff, Finset.le_fold_min]
    constructor
    · rintro ⟨hb, -, hf⟩
      refine ⟨hb, fun n' hn' i' => ?_⟩
      obtain rfl : n' = 0 := Nat.le_zero.mp hn'
      exact hf i' (Finset.mem_univ _)
    · rintro ⟨hb, hf⟩
      exact ⟨hb, hb, fun i' _ => hf 0 (Nat.le_refl _) i'⟩
  | succ n ih =>
    intro hn
    rw [hs n hn, le_min_iff, ih (Nat.lt_of_succ_lt hn), Finset.le_fold_min]
    constructor
    · rintro ⟨⟨hb, hf⟩, -, hl⟩
      refine ⟨hb, fun n' hn' i' => ?_⟩
      rcases Nat.lt_or_ge n' (n + 1) with h | h
      · exact hf n' (Nat.lt_succ_iff.mp h) i'
      · obtain rfl : n' = n + 1 := Nat.le_antisymm hn' h
        exact hl i' (Finset.mem_univ _)
    · rintro ⟨hb, hf⟩
      exact ⟨⟨hb, fun n' hn' i' => hf n' (Nat.le_succ_of_le hn') i'⟩, hb, fun i' _ => hf (n + 1) (Nat.le_refl _) i'⟩

/-- After the last of `N` tiles of width `w` the running minimum is the fold of `min` from the start value over the whole axis
    of `M = w * N` positions, position `w * n + i'` being entry `i'` of tile `n`. -/
theorem running_last_eq_fold (w N M : ℕ) (hw : 0 < w) (hM : M = w * N) (b : α) (f : ℕ → Fin w → α) (acc : ℕ → α)
    (h0 : acc 0 = min b (Finset.univ.fold min b (f 0)))
    (hs : ∀ n, n + 1 < N → acc (n + 1) = min (acc n) (Finset.univ.fold min b (f (n + 1))))
    (F : Fin M → α) (hF : ∀ (n : ℕ) (i' : Fin w) (h : w * n + i'.val < M), F ⟨w * n + i'.val, h⟩ = f n i')
    (L : ℕ) (hL : L + 1 = N) :
    acc L = Finset.univ.fold min b F := by
  refine eq_of_forall_le_iff fun c => ?_
  rw [le_running_iff w N b f acc h0 hs c L (by omega), Finset.le_fold_min]
  constructor
  · rintro ⟨hb, hf⟩
    refine ⟨hb, fun i _ => ?_⟩
    have hi : i.val < w * N := hM ▸ i.isLt
    have hdiv : i.val / w ≤ L := by
      have : i.val / w < N := Nat.div_lt_of_lt_mul hi
      omega
    have e : i = ⟨w * (i.val / w) + (⟨i.val % w, Nat.mod_lt _ hw⟩ : Fin w).val, by
        show w * (i.val / w) + i.val % w < M
        rw [Nat.div_add_mod]; exact i.isLt⟩ :=
      Fin.ext (Nat.div_add_mod _ _).symm
    rw [e, hF]
    exact hf _ hdiv _
  · rintro ⟨hb, hf⟩
    refine ⟨hb, fun n' hn' i' => ?_⟩
    have hlt : w * n' + i'.val < M := by
      have h1 : w * n' + i'.val < w * (n' + 1) := by rw [Nat.mul_succ]; exact Nat.add_lt_add_left i'.isLt _
      have h2 : w * (n' + 1) ≤ w * N := Nat.mul_le_mul_left _ (by omega)
      omega
    rw [← hF n' i' hlt]
    exact hf _ (Finset.mem_univ _)

end Cert.TiledMin
-- ==== Proof.KerPoint.lean ====
/-
  One grid point of the kernel, placed inside the whole arrays.

  Point `t` is tile `t mod 16` of batch block `t / 16`.  Its first input block is rows `8·(t/16) …` of the first cloud
  array and points `128·(t mod 16) …` of them; its second input block is the same rows of the second cloud array, all 2048
  points.  So entry (r, i, j) of the point's distance block is the squared distance between point `128·(t mod 16) + i` of
  the first array and point `j` of the second in cloud `8·(t/16) + r`.

  After the point, the first output's block holds entries of `toNearestY` of the two arrays.  The carried scratch runs a
  minimum over the tiles of the block so far, reset at the block's first tile; after the block's sixteenth tile it is the
  minimum over all 2048 points of the first array: an entry of `toNearestX`.
-/
import proofs.«106391_j39951785787527_1_alg».proof.Proof.KerSteps
import proofs.«106391_j39951785787527_1_alg».proof.Proof.KerPayload
import proofs.«106391_j39951785787527_1_alg».proof.Proof.LibTiledMin

set_option maxRecDepth 16384

noncomputable section

namespace Cert.KernelIdeal.Point

open Cert.KernelIdeal Cert.KernelIdeal.Gen Cert.KernelIdeal.Steps Cert.KernelIdeal.Payload Cert.Chamfer
open Idealize.ShloMosaic Idealize.ShloMosaic.TcCoe Idealize.SL.Sem Idealize.ShloMosaic.ValueIdx

variable (m : (ℓ : Loc nD τ sig) → Buf (Elt Ideal) ℓ)

/-- The two cloud arrays as the region finds them: the first window's array and the second's. -/
abbrev xs (c : Dev nD) : Cloud 16 2048 := V m c main_arg1
abbrev ys (c : Dev nD) : Cloud 16 2048 := V m c main_arg0
/-- Point `t`'s two input blocks. -/
abbrev xblk (c : Dev nD) (t : Fin cfg0.N) : Cloud 8 128 := iblk m c 0 t
abbrev yblk (c : Dev nD) (t : Fin cfg0.N) : Cloud 8 2048 := iblk m c 1 t

theorem lt32 (t : Fin cfg0.N) : t.val < 32 := lt_of_lt_of_eq t.isLt (show cfg0.N = 32 from N_0)

/-- The cloud that row `r` of point `t`'s blocks belongs to. -/
def row (t : Fin cfg0.N) (r : Fin 8) : Fin 16 :=
  ⟨8 * (t.val / 16) + r.val, by have := lt32 t; have := r.isLt; omega⟩
/-- The point of the first array that entry `i` of point `t`'s tile is. -/
def pt (t : Fin cfg0.N) (i : Fin 128) : Fin 2048 :=
  ⟨128 * (t.val % 16) + i.val, by have := i.isLt; omega⟩

/-- The printed index maps over the grid: the batch block is `t / 16`, the tile `t mod 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = t.val / 16 ∧ win0_2.index t (1 : Fin 2) = t.val % 16
    ∧ win0_3.index t (0 : Fin 2) = t.val / 16 ∧ win0_3.index t (1 : Fin 2) = 0 :=
  (by decide +kernel : ∀ t : Fin grid0.N, _)

/-- The first input block inside the first array. -/
theorem xblk_apply (c : Dev nD) (t : Fin cfg0.N) (r : Fin 8) (i : Fin 128) (k : Fin 3) :
    xblk m c t (ix3 r i k) = xs m c (ix3 (row t r) (pt t i) k) := by
  obtain ⟨e0, e1, e2, -⟩ := idx_facts t
  show V m c main_arg1 (((cfg0.win 0).blk t).view.emb (ix3 r i k)) = V m c main_arg1 (ix3 (row t r) (pt t i) k)
  refine congrArg (V m c main_arg1) (funext fun a => Fin.ext ?_)
  match a with
  | ⟨0, _⟩ => show win0_0.index t (0 : Fin 3) * 8 + 1 * r.val = 8 * (t.val / 16) + r.val; omega
  | ⟨1, _⟩ => show win0_0.index t (1 : Fin 3) * 128 + 1 * i.val = 128 * (t.val % 16) + i.val; omega
  | ⟨2, _⟩ => show win0_0.index t (2 : Fin 3) * 3 + 1 * k.val = k.val; omega

/-- The second input block inside the second array. -/
theorem yblk_apply (c : Dev nD) (t : Fin cfg0.N) (r : Fin 8) (j : Fin 2048) (k : Fin 3) :
    yblk m c t (ix3 r j k) = ys m c (ix3 (row t r) j k) := by
  obtain ⟨-, -, -, e0, e1, e2, -⟩ := idx_facts t
  show V m c main_arg0 (((cfg0.win 1).blk t).view.emb (ix3 r j k)) = V m c main_arg0 (ix3 (row t r) j k)
  refine congrArg (V m c main_arg0) (funext fun a => Fin.ext ?_)
  match a with
  | ⟨0, _⟩ => show win0_1.index t (0 : Fin 3) * 8 + 1 * r.val = 8 * (t.val / 16) + r.val; omega
  | ⟨1, _⟩ => show win0_1.index t (1 : Fin 3) * 2048 + 1 * j.val = j.val; omega
  | ⟨2, _⟩ => show win0_1.index t (2 : Fin 3) * 3 + 1 * k.val = k.val; omega

/-- An entry of the point's distance block is a squared distance between points of the whole arrays. -/
theorem sqDist_blk (c : Dev nD) (t : Fin cfg0.N) (r : Fin 8) (i : Fin 128) (j : Fin 2048) :
    sqDist (xblk m c t) (yblk m c t) r i j = sqDist (xs m c) (ys m c) (row t r) (pt t i) j :=
  sqDist_congr (fun k => xblk_apply m c t r i k) (fun k => yblk_apply m c t r j k)

/-- The first output after point `t`, entry (r, i): `toNearestY` of the two arrays at this tile's point. -/
theorem nearY_at (c : Dev nD) (t : Fin cfg0.N) (r : Fin 8) (i : Fin 128) :
    (outsAt0 m c t.val t.isLt).1 (ix2 r i) = toNearestY (xs m c) (ys m c) (ix2 (row t r) (pt t i)) :=
  (congrFun (nearY_step m c t) (ix2 r i)).trans
    ((nearY_apply (xblk m c t) (yblk m c t) r i).trans (Finset.fold_congr fun j _ => sqDist_blk m c t r i j))

/-- The scratch after point `t`, entry (r, j): the lesser of what it held and this tile's least squared distance to `j`. -/
theorem scratch_at (c : Dev nD) (t : Fin cfg0.N) (r : Fin 8) (j : Fin 2048) :
    (outsAt0 m c t.val t.isLt).2.2 (ix2 r j)
      = min (carried m c t (ix2 r j))
          (Finset.univ.fold min start fun i : Fin 128 => sqDist (xs m c) (ys m c) (row t r) (pt t i) j) :=
  (congrFun (scratch_step m c t) (ix2 r j)).trans
    ((runMin_apply (xblk m c t) (yblk m c t) (carried m c t) r j).trans
      (congrArg (min (carried m c t (ix2 r j))) (Finset.fold_congr fun i _ => sqDist_blk m c t r i j)))

/-! ## The sixteen tiles of a batch block -/

/-- Tile `n` (read modulo sixteen) of the batch block point `t` lies in. -/
def tileOf (t : Fin cfg0.N) (n : ℕ) : Fin cfg0.N :=
  ⟨16 * (t.val / 16) + n % 16, lt_of_lt_of_eq (by have := lt32 t; omega) N_0.symm⟩

theorem outsAt0_congr (c : Dev nD) {a b : ℕ} (e : a = b) (ha : a < cfg0.N) (hb : b < cfg0.N) :
    outsAt0 m c a ha = outsAt0 m c b hb := by subst e; rfl

/-- The scratch after tile `n` of `t`'s batch block, over the points of the first array that tile holds. -/
theorem scratch_tile (c : Dev nD) (t : Fin cfg0.N) (r : Fin 8) (j : Fin 2048) (n : ℕ) (hn : n < 16) :
    (outsAt0 m c (tileOf t n).val (tileOf t n).isLt).2.2 (ix2 r j)
      = min (carried m c (tileOf t n) (ix2 r j))
          (Finset.univ.fold min start fun i' : Fin 128 =>
            sqDist (xs m c) (ys m c) (row t r) ⟨(128 * n + i'.val) % 2048, Nat.mod_lt _ (by norm_num)⟩ j) := by
  refine (scratch_at m c (tileOf t n) r j).trans
    (congrArg (min (carried m c (tileOf t n) (ix2 r j))) (Finset.fold_congr fun i' _ => ?_))
  have e1 : row (tileOf t n) r = row t r :=
    Fin.ext (by show 8 * ((16 * (t.val / 16) + n % 16) / 16) + r.val = 8 * (t.val / 16) + r.val; omega)
  have e2 : pt (tileOf t n) i' = ⟨(128 * n + i'.val) % 2048, Nat.mod_lt _ (by norm_num)⟩ :=
    Fin.ext (by
      show 128 * ((16 * (t.val / 16) + n % 16) % 16) + i'.val = (128 * n + i'.val) % 2048
      have := i'.isLt; omega)
  rw [e1, e2]

/-- After a batch block's last tile the scratch holds, at (r, j), the least squared distance from ANY point of the first
    array's cloud to point `j`: the running minimum over the sixteen tiles is the minimum over the whole axis. -/
theorem scratch_last (c : Dev nD) (t : Fin cfg0.N) (h15 : t.val % 16 = 15) (r : Fin 8) (j : Fin 2048) :
    (outsAt0 m c t.val t.isLt).2.2 (ix2 r j) = toNearestX (xs m c) (ys m c) (ix2 (row t r) j) := by
  have hN := lt32 t
  have key := Cert.TiledMin.running_last_eq_fold 128 16 2048 (by norm_num) (by norm_num) start
    (fun n i' => sqDist (xs m c) (ys m c) (row t r) ⟨(128 * n + i'.val) % 2048, Nat.mod_lt _ (by norm_num)⟩ j)
    (fun n => (outsAt0 m c (tileOf t n).val (tileOf t n).isLt).2.2 (ix2 r j))
    (by
      -- the first tile: the scratch was reset to the start value just before
      refine (scratch_tile m c t r j 0 (by norm_num)).trans ?_
      have hc : carried m c (tileOf t 0) (ix2 r j) = start := by
        unfold carried
        rw [if_pos (show (tileOf t 0).val % 16 = 0 by show (16 * (t.val / 16) + 0 % 16) % 16 = 0; omega)]
        exact reset_apply (ix2 r j)
      rw [hc])
    (fun n hn => by
      -- a later tile: the scratch holds what the tile before left
      refine (scratch_tile m c t r j (n + 1) hn).trans ?_
      have hc : carried m c (tileOf t (n + 1)) (ix2 r j)
          = (outsAt0 m c (tileOf t n).val (tileOf t n).isLt).2.2 (ix2 r j) := by
        unfold carried
        rw [if_neg (show ¬(tileOf t (n + 1)).val % 16 = 0 by show ¬(16 * (t.val / 16) + (n + 1) % 16) % 16 = 0; omega)]
        exact congrFun (congrArg (fun p => p.2.2) (outsAt0_congr m c
          (show (tileOf t (n + 1)).val - 1 = (tileOf t n).val by
            show 16 * (t.val / 16) + (n + 1) % 16 - 1 = 16 * (t.val / 16) + n % 16; omega) _ _)) (ix2 r j)
      rw [hc])
    (fun i => sqDist (xs m c) (ys m c) (row t r) i j)
    (fun n i' h => congrArg (fun i => sqDist (xs m c) (ys m c) (row t r) i j) (Fin.ext (Nat.mod_eq_of_lt h).symm))
    15 rfl
  have e : tileOf t 15 = t := Fin.ext (by show 16 * (t.val / 16) + 15 % 16 = t.val; omega)
  rw [e] at key
  exact key

end Cert.KernelIdeal.Point

end
-- ==== Proof.KerArrays.lean ====
/-
  The kernel's two result arrays after the run.

  The first output's blocks are written back at every point: block (t / 16, t mod 16) of 8 × 128, which is that block of
  `toNearestY` of the two cloud arrays.  The second output's block (t / 16, 0) of 8 × 2048 is written back only after a
  batch block's last tile, when the scratch it copies has run over all sixteen tiles: that block of `toNearestX`.  The
  blocks of each output tile its array, so each array ends holding its function of the two cloud arrays.
-/
import proofs.«106391_j39951785787527_1_alg».proof.Proof.KerPoint
import Idealize.ShloMosaic.Lib.Pipeline.Value

set_option maxRecDepth 16384

noncomputable section

namespace Cert.KernelIdeal.Arrays

open Cert.KernelIdeal Cert.KernelIdeal.Gen Cert.KernelIdeal.Steps Cert.KernelIdeal.Point Cert.Chamfer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## What a point writes back -/

/-- Every point writes back its block of `toNearestY`. -/
theorem flushedY_eq (c : Dev nD) (t : Fin cfg0.N) :
    (dats m 0 c).flushed 2 t = ((cfg0.win 2).blk t).view.read (Elt Ideal) (toNearestY (xs m c) (ys m c)) := by
  obtain ⟨-, -, -, -, -, -, e0, e1, -⟩ := idx_facts t
  show (cfg0.win 2).cut (grid0.coords t) ((dats m 0 c).after 2 t) = _
  rw [after0_2]
  funext y
  obtain ⟨r, i, rfl⟩ : ∃ (r : Fin 8) (i : Fin 128), y = ix2 r i := ⟨y 0, y 1, eq_ix2 y⟩
  show (outsAt0 m c t.val t.isLt).1 (ix2 r i) = toNearestY (xs m c) (ys m c) (((cfg0.win 2).blk t).view.emb (ix2 r i))
  rw [nearY_at]
  refine congrArg (toNearestY (xs m c) (ys m c)) (funext fun a => Fin.ext ?_)
  match a with
  | ⟨0, _⟩ => show 8 * (t.val / 16) + r.val = win0_2.index t (0 : Fin 2) * 8 + 1 * r.val; omega
  | ⟨1, _⟩ => show 128 * (t.val % 16) + i.val = win0_2.index t (1 : Fin 2) * 128 + 1 * i.val; omega

/-- A batch block's last point writes back its block of `toNearestX`. -/
theorem flushedX_eq (c : Dev nD) (t : Fin cfg0.N) (hf : (cfg0.win 3).flush t = true) :
    (dats m 0 c).flushed 3 t = ((cfg0.win 3).blk t).view.read (Elt Ideal) (toNearestX (xs m c) (ys m c)) := by
  have h15 : t.val % 16 = 15 := (flush0_3 t).mp hf
  obtain ⟨-, -, -, -, -, -, -, -, e0, e1⟩ := idx_facts t
  show (cfg0.win 3).cut (grid0.coords t) ((dats m 0 c).after 3 t) = _
  rw [after0_3, nearX_last m c t h15]
  funext y
  obtain ⟨r, j, rfl⟩ : ∃ (r : Fin 8) (j : Fin 2048), y = ix2 r j := ⟨y 0, y 1, eq_ix2 y⟩
  show (outsAt0 m c t.val t.isLt).2.2 (ix2 r j) = toNearestX (xs m c) (ys m c) (((cfg0.win 3).blk t).view.emb (ix2 r j))
  rw [scratch_last m c t h15]
  refine congrArg (toNearestX (xs m c) (ys m c)) (funext fun a => Fin.ext ?_)
  match a with
  | ⟨0, _⟩ => show 8 * (t.val / 16) + r.val = win0_3.index t (0 : Fin 2) * 8 + 1 * r.val; omega
  | ⟨1, _⟩ => show j.val = win0_3.index t (1 : Fin 2) * 2048 + 1 * j.val; omega

/-! ## The blocks tile the arrays -/

theorem mem_blkY (t : Fin cfg0.N) (i : S16x2048.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_0).slice (win0_2.rect t)).set ↔ _
  rw [View.set_slice_whole, Rect.mem_set_unit]
  exact Iff.rfl

theorem mem_blkX (t : Fin cfg0.N) (i : S16x2048.Idx) :
    i ∈ ((cfg0.win 3).blk t).view.set ↔ ∀ a : Fin 2, win0_3.index t a * S8x2048.size a ≤ (i a).val ∧ (i a).val < win0_3.index t a * S8x2048.size a + S8x2048.size a := by
  show i ∈ ((View.whole main_v0_1).slice (win0_3.rect t)).set ↔ _
  rw [View.set_slice_whole, Rect.mem_set_unit]
  exact Iff.rfl

/-- Entry (b, p) of the first output lies in the block of point `16·(b / 8) + p / 128`. -/
theorem coverY (i : S16x2048.Idx) : ∃ t : Fin cfg0.N, (cfg0.win 2).flush t = true ∧ i ∈ ((cfg0.win 2).blk t).view.set := by
  have h0 : (i 0).val < 16 := (i 0).isLt
  have h1 : (i 1).val < 2048 := (i 1).isLt
  obtain ⟨t, ht⟩ : ∃ t : Fin cfg0.N, t.val = 16 * ((i 0).val / 8) + (i 1).val / 128 :=
    ⟨⟨16 * ((i 0).val / 8) + (i 1).val / 128, lt_of_lt_of_eq (by omega) N_0.symm⟩, rfl⟩
  obtain ⟨-, -, -, -, -, -, e0, e1, -⟩ := idx_facts t
  refine ⟨t, flush0_2 t, ?_⟩
  rw [mem_blkY]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- Entry (b, p) of the second output lies in the block the last point of batch block `b / 8` writes back. -/
theorem coverX (i : S16x2048.Idx) : ∃ t : Fin cfg0.N, (cfg0.win 3).flush t = true ∧ i ∈ ((cfg0.win 3).blk t).view.set := by
  have h0 : (i 0).val < 16 := (i 0).isLt
  have h1 : (i 1).val < 2048 := (i 1).isLt
  obtain ⟨t, ht⟩ : ∃ t : Fin cfg0.N, t.val = 16 * ((i 0).val / 8) + 15 :=
    ⟨⟨16 * ((i 0).val / 8) + 15, lt_of_lt_of_eq (by omega) N_0.symm⟩, rfl⟩
  obtain ⟨-, -, -, -, -, -, -, -, e0, e1⟩ := idx_facts t
  refine ⟨t, (flush0_3 t).mpr (by omega), ?_⟩
  rw [mem_blkX]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 2048 ≤ (i 1).val ∧ (i 1).val < win0_3.index t (1 : Fin 2) * 2048 + 2048; omega

/-! ## The arrays after the run -/

theorem finalY (c : Dev nD) : (dats m 0 c).arrAt 2 cfg0.N = toNearestY (xs m c) (ys m c) :=
  (dats m 0 c).arrAt_eq_of_cover 2 (toNearestY (xs m c) (ys m c)) (fun t _ => flushedY_eq m c t) coverY

theorem finalX (c : Dev nD) : (dats m 0 c).arrAt 3 cfg0.N = toNearestX (xs m c) (ys m c) :=
  (dats m 0 c).arrAt_eq_of_cover 3 (toNearestX (xs m c) (ys m c)) (flushedX_eq m c) coverX

end Cert.KernelIdeal.Arrays

end
-- ==== Proof.KerRun.lean ====
/-
  The idealized kernel's run, read.

  After the region the program multiplies the second result array by the mask laid out as 16 × 2048, takes three means
  and adds them.  Those host operations read the two result arrays where the region left them (`toNearestY` and
  `toNearestX` of the two cloud arrays) and two argument arrays the region does not touch, so the program's first result
  is `loss` of those four; its second result is the zero word.  Every argument array ends as it began.
-/
import proofs.«106391_j39951785787527_1_alg».proof.Proof.KerArrays
import Idealize.ShloMosaic.Lib.StableHlo.Run

set_option maxRecDepth 16384

noncomputable section

namespace Cert.KernelIdeal.Run

open Cert.KernelIdeal Cert.KernelIdeal.Gen Cert.KernelIdeal.Point Cert.KernelIdeal.Arrays Cert.Chamfer
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The first result after the host operations that follow the region. -/
theorem tail_eq (c : Dev nD) :
    Pipeline.afterTail₀ cfgs (dats m) 0 (V0 m) [hostOps1] c main_v11
      = loss shapeCasts_S4x4x2x32x32_S16x2048 reducesTo_S16x2048_S_d0_1 reducesTo_S16x2048x3_S_d0_1_2 h_S_
          (toNearestY (xs m c) (ys m c)) (toNearestX (xs m c) (ys m c))
          (m ((c : Thread nD τ).loc main_arg2)) (m ((c : Thread nD τ).loc main_arg3)) := by
  have hX : Pipeline.withArrays (cfgs 0).spec c (V0 m c) (fun w => (dats m 0 c).arrAt w (cfgs 0).N) (Proc.devRef .tc main_v0_1) = toNearestX (xs m c) (ys m c) :=
    (Pipeline.withArrays_arr spec0 launch0.win.arr_inj c _ _ 3).trans (finalX m c)
  have hY : Pipeline.withArrays (cfgs 0).spec c (V0 m c) (fun w => (dats m 0 c).arrAt w (cfgs 0).N) (Proc.devRef .tc main_v0_0) = toNearestY (xs m c) (ys m c) :=
    (Pipeline.withArrays_arr spec0 launch0.win.arr_inj c _ _ 2).trans (finalY m c)
  have h2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v11) = _
  after_results
  rw [hX, hY, h2, h3]
  rfl

/-- The second result: the zero word. -/
theorem tail_zero (c : Dev nD) :
    Pipeline.afterTail₀ cfgs (dats m) 0 (V0 m) [hostOps1] c main_cst_5 = constant (F := Ideal) S_ .f32 0x00000000#32 := by
  unfold Pipeline.afterTail₀
  show StableHlo.after hostOps1 _ (Proc.devRef .tc main_cst_5) = _
  after_results

/-- Every weakly fair execution of the idealized kernel's program terminates with its first result at the loss of the
    nearest-neighbour arrays of its two cloud arguments, the mask and the fourth argument, its second result at zero, and
    its arguments unchanged. -/
theorem run : θ_run defs (onTc (τ := τ) (main (F := Ideal))) ⟨m, fun _ => 0, ρ⟩ fun r => ∀ c : Dev nD,
      r.2.mem ((c.tc : Thread nD τ).loc main_v11) = loss shapeCasts_S4x4x2x32x32_S16x2048 reducesTo_S16x2048_S_d0_1 reducesTo_S16x2048x3_S_d0_1_2 h_S_
          (toNearestY (xs m c) (ys m c)) (toNearestX (xs m c) (ys m c))
          (m ((c : Thread nD τ).loc main_arg2)) (m ((c : Thread nD τ).loc main_arg3))
      ∧ r.2.mem ((c.tc : Thread nD τ).loc main_cst_5) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (tail_eq m c),
      ((h c).2 main_cst_5 (Pipeline.mem_restRefs_of main_cst_5 (by decide) (by decide))).trans (tail_zero m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference, read against the specification.

  The reference computes the whole 16 × 2048 × 2048 array of squared distances at once — the two arrays of squared norms
  laid along its rows and its columns and added, minus twice the batched product of the clouds — and takes its minimum
  along the last axis (for every point of the first cloud) and along the middle axis (for every point of the second).
  Entry (b, i, j) of the distance array is `sqDist` of the two clouds at (b, i, j): the host's sums start from the zero word,
  which adds nothing.  A minimum along one axis is the fold of `min` over that axis's coordinates from the +∞ word, so the
  two reduced arrays are `toNearestY` and `toNearestX`; what follows them in the program is `loss`, term for term.
-/
import proofs.«106391_j39951785787527_1_alg».proof.Defs
import proofs.«106391_j39951785787527_1_alg».proof.Proof.Gen.ReferenceIdeal.Run
import proofs.«106391_j39951785787527_1_alg».proof.Proof.Gen.ReferenceIdeal.Read
import proofs.«106391_j39951785787527_1_alg».proof.Proof.Spec
import Idealize.ShloMosaic.PureOps.Reduce

noncomputable section

namespace Cert.ReferenceIdeal.RefValue

open Cert.ReferenceIdeal Cert.ReferenceIdeal.Gen Cert.ReferenceIdeal.Read Cert.Chamfer
open Idealize.ShloMosaic Idealize.ShloMosaic.ValueIdx

/-- Entry (b, i, j) of the reference's distance array: the squared distance between point `i` of the second argument's
    cloud `b` and point `j` of the first argument's. -/
theorem dist_apply (x0 x1 : (⟨S16x2048x3, .f32⟩ : BufTy).Contents (Elt Ideal)) (b : Fin 16) (i j : Fin 2048) :
    val_main_v12 (F := Ideal) x0 x1 (ix3 b i j) = sqDist x1 x0 b i j := by
  have e1 : ∀ k : Fin 3, idx_main_v1 (idx_main_v4 (idx_main_v6 (ix3 b i j))) k = ix3 b i k := fun k =>
    funext fun a => Fin.ext (by match a with | ⟨0, _⟩ => rfl | ⟨1, _⟩ => rfl | ⟨2, _⟩ => rfl)
  have e3 : ∀ k : Fin 3, idx_main_v3 (idx_main_v5 (idx_main_v7 (ix3 b i j))) k = ix3 b j k := fun k =>
    funext fun a => Fin.ext (by match a with | ⟨0, _⟩ => rfl | ⟨1, _⟩ => rfl | ⟨2, _⟩ => rfl)
  have el : ∀ k : Fin 3, lidx_main_v9 (ix3 b i j) k = ix3 b i k := fun k =>
    funext fun a => Fin.ext (by match a with | ⟨0, _⟩ => rfl | ⟨1, _⟩ => rfl | ⟨2, _⟩ => rfl)
  have er : ∀ k : Fin 3, ridx_main_v9 (ix3 b i j) k = ix3 b j k := fun k =>
    funext fun a => Fin.ext (by match a with | ⟨0, _⟩ => rfl | ⟨1, _⟩ => rfl | ⟨2, _⟩ => rfl)
  rw [val_main_v12_apply, val_main_v8_apply, val_main_v11_apply, val_main_v6_apply, val_main_v4_apply, val_main_v1_apply,
    val_main_v7_apply, val_main_v5_apply, val_main_v3_apply, val_main_v10_apply, val_main_v9_apply]
  simp only [e1, e3, el, er, val_main_v0_apply, val_main_v2_apply, val_main_cst_apply, val_main_cst_0_apply,
    val_main_cst_1_apply, Ideal.mulf_def, Ideal.addf_def, Ideal.subf_def, Ideal.ofBits_def, Ideal.ofBits_zero_f32, zero_add]
  rfl

/-- The reference's minimum along the last axis is, for every point of the second argument's clouds, the least squared
    distance to a point of the first argument's. -/
theorem nearestY_eq (x0 x1 : (⟨S16x2048x3, .f32⟩ : BufTy).Contents (Elt Ideal)) :
    val_main_v13 (F := Ideal) x0 x1 = toNearestY x1 x0 := by
  funext q
  obtain ⟨b, i, rfl⟩ : ∃ (b : Fin 16) (i : Fin 2048), q = ix2 b i := ⟨q 0, q 1, eq_ix2 q⟩
  unfold val_main_v13
  rw [Host.reduce_eq_fold_single FloatOps.minimumf _ _ reducesTo_S16x2048x2048_S16x2048_d2 (by decide) h_S_ (ix2 b i),
    toNearestY_apply]
  exact Finset.fold_congr fun j _ => by
    show val_main_v12 (F := Ideal) x0 x1 (Shape.Reduces.lift _ (ix2 b i) j) = sqDist x1 x0 b i j
    rw [show Shape.Reduces.lift _ (ix2 b i) j = ix3 b i j from
      funext fun a => Fin.ext (by match a with | ⟨0, _⟩ => rfl | ⟨1, _⟩ => rfl | ⟨2, _⟩ => rfl)]
    exact dist_apply x0 x1 b i j

/-- The reference's minimum along the middle axis is, for every point of the first argument's clouds, the least squared
    distance to a point of the second argument's. -/
theorem nearestX_eq (x0 x1 : (⟨S16x2048x3, .f32⟩ : BufTy).Contents (Elt Ideal)) :
    val_main_v14 (F := Ideal) x0 x1 = toNearestX x1 x0 := by
  funext q
  obtain ⟨b, j, rfl⟩ : ∃ (b : Fin 16) (j : Fin 2048), q = ix2 b j := ⟨q 0, q 1, eq_ix2 q⟩
  unfold val_main_v14
  rw [Host.reduce_eq_fold_single FloatOps.minimumf _ _ reducesTo_S16x2048x2048_S16x2048_d1 (by decide) h_S_ (ix2 b j),
    toNearestX_apply]
  exact Finset.fold_congr fun i _ => by
    show val_main_v12 (F := Ideal) x0 x1 (Shape.Reduces.lift _ (ix2 b j) i) = sqDist x1 x0 b i j
    rw [show Shape.Reduces.lift _ (ix2 b j) i = ix3 b i j from
      funext fun a => Fin.ext (by match a with | ⟨0, _⟩ => rfl | ⟨1, _⟩ => rfl | ⟨2, _⟩ => rfl)]
    exact dist_apply x0 x1 b i j

/-- The reference's first result is the loss of the two nearest-neighbour arrays, the mask and the fourth array. -/
theorem result_eq (x0 x1 : (⟨S16x2048x3, .f32⟩ : BufTy).Contents (Elt Ideal))
    (x2 : (⟨S4x4x2x32x32, .f32⟩ : BufTy).Contents (Elt Ideal)) (x3 : (⟨S16x2048x3, .f32⟩ : BufTy).Contents (Elt Ideal)) :
    val_main_v25 (F := Ideal) x0 x1 x2 x3
      = loss shapeCasts_S4x4x2x32x32_S16x2048 reducesTo_S16x2048_S_d0_1 reducesTo_S16x2048x3_S_d0_1_2 h_S_
          (toNearestY x1 x0) (toNearestX x1 x0) x2 x3 := by
  rw [← nearestY_eq, ← nearestX_eq]
  rfl

end Cert.ReferenceIdeal.RefValue

end
-- ==== Proof.lean ====
/-
  A bidirectional nearest-neighbour loss, tiled over one cloud, against the same loss computed whole.

  Two batches of sixteen clouds of 2048 points in three coordinates.  Both programs take, for every pair of a point of
  the one cloud and a point of the other, the squared distance in the grouping (|x|² + |y|²) − 2·(x · y); then for every
  point of either cloud the least squared distance to the other cloud; then the sum of three means (the one cloud's
  minima weighted entrywise by a mask, the other cloud's minima, the squares of a fourth array).

  The kernel walks the first cloud in sixteen tiles of 128 points per block of eight clouds.  A tile's own minima along
  the other cloud are complete at once.  The minima along the tiled cloud are kept in a scratch that starts each block
  at +∞ and takes, tile by tile, the entrywise minimum with the tile's column minima; after the sixteenth tile it is
  written out.  Over the extended reals a minimum taken tile by tile is the minimum over the whole axis, whatever the
  entries: `min` is associative, commutative and idempotent, and +∞ is above everything.  The sums and the product are
  the same sums on both sides, the reference's starting from a zero that adds nothing.  So the two nearest-neighbour
  arrays agree entry by entry, and the host operations after them are the same on both sides, applied to equal arrays.
  No step needs an input to be finite: the precondition is never opened.

  The three frames: the two kernel programs' are the generated ones; the reference has no kernel and its frame is its
  run with the results dropped.  The idealization rewrote nothing, so there is nothing to preserve.
-/
import proofs.«106391_j39951785787527_1_alg».proof.Defs
import proofs.«106391_j39951785787527_1_alg».proof.Proof.Gen.Kernel
import proofs.«106391_j39951785787527_1_alg».proof.Proof.Gen.Kernel.Frame
import proofs.«106391_j39951785787527_1_alg».proof.Proof.Gen.KernelIdeal
import proofs.«106391_j39951785787527_1_alg».proof.Proof.Gen.KernelIdeal.Frame
import proofs.«106391_j39951785787527_1_alg».proof.Proof.Gen.ReferenceIdeal
import proofs.«106391_j39951785787527_1_alg».proof.Proof.Gen.ReferenceIdeal.Run
import proofs.«106391_j39951785787527_1_alg».proof.Proof.Gen.ReferenceIdeal.Read
import proofs.«106391_j39951785787527_1_alg».proof.Proof.Gen.Pre_finite_inputs
import proofs.«106391_j39951785787527_1_alg».proof.Proof.KerRun
import proofs.«106391_j39951785787527_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the loss of the same two nearest-neighbour arrays, the same mask and the same fourth array
    (the arguments agree), and with the zero word as their second result. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨(h c).1.trans ?_, (h c).2.1, (h c).2.2⟩)
    (Cert.ReferenceIdeal.Value.run (F := Ideal) m' ρ')
  obtain ⟨h0, h1, h2, h3⟩ := hagree c
  rw [Cert.ReferenceIdeal.Read.val_main_v25_eq, Cert.ReferenceIdeal.RefValue.result_eq, h0, h1, h2, h3]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
